-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S_ : Shape := ⟨0, ![]⟩

class Facts : Prop where
  bcast_S_S8x65536x1x64 : S_.BroadcastsInDim S8x65536x1x64 (![] : Fin 0 → Fin S8x65536x1x64.rank)
  reducesTo_S8x65536x1x64_S_d0_1_2_3 : S8x65536x1x64.ReducesTo [0, 1, 2, 3] S_
  h_S_ : 0 < S_.numel
  bcast_S_S8x64x128 : S_.BroadcastsInDim S8x64x128 (![] : Fin 0 → Fin S8x64x128.rank)
  reducesTo_S8x64x128_S_d0_1_2 : S8x64x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x48 : S_.BroadcastsInDim S8x128x48 (![] : Fin 0 → Fin S8x128x48.rank)
  reducesTo_S8x128x48_S_d0_1_2 : S8x128x48.ReducesTo [0, 1, 2] S_
  bcast_S_S8x48 : S_.BroadcastsInDim S8x48 (![] : Fin 0 → Fin S8x48.rank)
  reducesTo_S8x48_S_d0_1 : S8x48.ReducesTo [0, 1] S_

variable [Facts]

def fn_part1 {F : FTy → Type} [FloatOps F] (main_arg4 : FVec F S8x128 .f32) (main_arg5 : FVec F S8x128x48 .f32) (main_arg6 : FVec F S8x48 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x48 .f32 := Host.absf main_arg5
  let main_cst_8 : FVec F S_ .f32 := constant S_ .f32 0x7F800000#32
  let main_v25 : FVec F S8x128x48 .f32 := broadcastInDim S8x128x48 ![] bcast_S_S8x128x48 main_cst_8
  let main_v26 : IVec S8x128x48 1 := cmpf .olt main_v24 main_v25
  let main_c_9 : IVec S_ 1 := constantI S_ 1 1#1
  let main_v27 : IVec S_ 1 := (fun x v => Host.reduce IntOp.andi x v reducesTo_S8x128x48_S_d0_1_2 h_S_) main_v26 main_c_9
  let main_v28 : IVec S_ 1 := andi main_v23 main_v27
  let main_v29 : FVec F S8x48 .f32 := Host.absf main_arg6
  let main_cst_10 : FVec F S_ .f32 := constant S_ .f32 0x7F800000#32
  let main_v30 : FVec F S8x48 .f32 := broadcastInDim S8x48 ![] bcast_S_S8x48 main_cst_10
  let main_v31 : IVec S8x48 1 := cmpf .olt main_v29 main_v30
  let main_c_11 : IVec S_ 1 := constantI S_ 1 1#1
  let main_v32 : IVec S_ 1 := (fun x v => Host.reduce IntOp.andi x v reducesTo_S8x48_S_d0_1 h_S_) main_v31 main_c_11
  let main_v33 : IVec S_ 1 := andi main_v28 main_v32
  main_v33

def fn {F : FTy → Type} [FloatOps F] (main_arg0 : FVec F S8x65536x1x64 .f32) (main_arg1 : FVec F S8x64x128 .f32) (main_arg2 : FVec F S8x128 .f32) (main_arg3 : FVec F S8x128x128 .f32) (main_arg4 : FVec F S8x128 .f32) (main_arg5 : FVec F S8x128x48 .f32) (main_arg6 : FVec F S8x48 .f32) : IVec S_ 1 :=
  let main_v0 : FVec F S8x65536x1x64 .f32 := Host.absf main_arg0
  let main_cst : FVec F S_ .f32 := constant S_ .f32 0x7F800000#32
  let main_v1 : FVec F S8x65536x1x64 .f32 := broadcastInDim S8x65536x1x64 ![] bcast_S_S8x65536x1x64 main_cst
  let main_v2 : IVec S8x65536x1x64 1 := cmpf .olt main_v0 main_v1
  let main_c : IVec S_ 1 := constantI S_ 1 1#1
  let main_v3 : IVec S_ 1 := (fun x v => Host.reduce IntOp.andi x v reducesTo_S8x65536x1x64_S_d0_1_2_3 h_S_) main_v2 main_c
  let main_v4 : FVec F S8x64x128 .f32 := Host.absf main_arg1
  let main_cst_0 : FVec F S_ .f32 := constant S_ .f32 0x7F800000#32
  let main_v5 : FVec F S8x64x128 .f32 := broadcastInDim S8x64x128 ![] bcast_S_S8x64x128 main_cst_0
  let main_v6 : IVec S8x64x128 1 := cmpf .olt main_v4 main_v5
  let main_c_1 : IVec S_ 1 := constantI S_ 1 1#1
  let main_v7 : IVec S_ 1 := (fun x v => Host.reduce IntOp.andi x v reducesTo_S8x64x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_arg6 main_v13 main_v16
-- ==== Kernel.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S8x65536x64 : Shape := ⟨3, ![8, 65536, 64]⟩
abbrev S8x1x128 : Shape := ⟨3, ![8, 1, 128]⟩
abbrev S8x1x48 : Shape := ⟨3, ![8, 1, 48]⟩
abbrev S8x65536x48 : Shape := ⟨3, ![8, 65536, 48]⟩
abbrev S1x4096x64 : Shape := ⟨3, ![1, 4096, 64]⟩
abbrev S1x64x128 : Shape := ⟨3, ![1, 64, 128]⟩
abbrev S1x1x128 : Shape := ⟨3, ![1, 1, 128]⟩
abbrev S1x128x128 : Shape := ⟨3, ![1, 128, 128]⟩
abbrev S1x128x48 : Shape := ⟨3, ![1, 128, 48]⟩
abbrev S1x1x48 : Shape := ⟨3, ![1, 1, 48]⟩
abbrev S1x4096x48 : Shape := ⟨3, ![1, 4096, 48]⟩
abbrev S4096x64 : Shape := ⟨2, ![4096, 64]⟩
abbrev S64x128 : Shape := ⟨2, ![64, 128]⟩
abbrev S4096x128 : Shape := ⟨2, ![4096, 128]⟩
abbrev S1x128 : Shape := ⟨2, ![1, 128]⟩
abbrev S128x128 : Shape := ⟨2, ![128, 128]⟩
abbrev S128x48 : Shape := ⟨2, ![128, 48]⟩
abbrev S4096x48 : Shape := ⟨2, ![4096, 48]⟩
abbrev S1x48 : Shape := ⟨2, ![1, 48]⟩

abbrev nBuf : Space → Nat
  | .hbm => 15
  | .vmem => 16
  | .smem => 0
  | _ => 0

abbrev bufTy : (tb : Table) → Fin (tcTables nBuf tb) → BufTy
  | .hbm, ⟨0, _⟩ => ⟨S8x65536x1x64, .f32⟩
  | .hbm, ⟨1, _⟩ => ⟨S8x64x128, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S8x128x48, .f32⟩
  | .hbm, ⟨6, _⟩ => ⟨S8x48, .f32⟩
  | .hbm, ⟨7, _⟩ => ⟨S8x65536x64, .f32⟩
  | .hbm, ⟨8, _⟩ => ⟨S8x1x128, .f32⟩
  | .hbm, ⟨9, _⟩ => ⟨S8x1x128, .f32⟩
  | .hbm, ⟨10, _⟩ => ⟨S8x1x48, .f32⟩
  | .hbm, ⟨11, _⟩ => ⟨S8x64x128, .bf16⟩
  | .hbm, ⟨12, _⟩ => ⟨S8x128x128, .bf16⟩
  | .hbm, ⟨13, _⟩ => ⟨S8x128x48, .bf16⟩
  | .hbm, ⟨14, _⟩ => ⟨S8x65536x48, .f32⟩
  | .local _ .vmem, ⟨0, _⟩ => ⟨S1x4096x64, .f32⟩
  | .local _ .vmem, ⟨1, _⟩ => ⟨S1x4096x64, .f32⟩
  | .local _ .vmem, ⟨2, _⟩ => ⟨S1x64x128, .bf16⟩
  | .local _ .vmem, ⟨3, _⟩ => ⟨S1x64x128, .bf16⟩
  | .local _ .vmem, ⟨4, _⟩ => ⟨S1x1x128, .f32⟩
  | .local _ .vmem, ⟨5, _⟩ => ⟨S1x1x128, .f32⟩
  | .local _ .vmem, ⟨6, _⟩ => ⟨S1x128x128, .bf16⟩
  | .local _ .vmem, ⟨7, _⟩ => ⟨S1x128x128, .bf16⟩
  | .local _ .vmem, ⟨8, _⟩ => ⟨S1x1x128, .f32⟩
  | .local _ .vmem, ⟨9, _⟩ => ⟨S1x1x128, .f32⟩
  | .local _ .vmem, ⟨10, _⟩ => ⟨S1x128x48, .bf16⟩
  | .local _ .vmem, ⟨11, _⟩ => ⟨S1x128x48, .bf16⟩
  | .local _ .vmem, ⟨12, _⟩ => ⟨S1x1x48, .f32⟩
  | .local _ .vmem, ⟨13, _⟩ => ⟨S1x1x48, .f32⟩
  | .local _ .vmem, ⟨14, _⟩ => ⟨S1x4096x48, .f32⟩
  | .local _ .vmem, ⟨15, _⟩ => ⟨S1x4096x48, .f32⟩
  | _, _ => ⟨S8x65536x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x48 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x65536x1x64_S8x65536x64 : S8x65536x1x64.ShapeCasts S8x65536x64
  shapeCasts_S8x128_S8x1x128 : S8x128.ShapeCasts S8x1x128
  shapeCasts_S8x48_S8x1x48 : S8x48.ShapeCasts S8x1x48
  bitsLt_bf16_f32 : FTy.bits .bf16 < FTy.bits .f32
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  iota_S4096x64_d1_w32 : S4096x64.Iotas .tc 32 [1]
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S4096x128 : S1x128.Broadcasts S4096x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128x48_S1x128x48_0_0_0 : ∀ a, (![0, 0, 0] : Fin 3 → Nat) a + S1x128x48.size a ≤ S1x128x48.size a
  h_S1x128x48 : 0 < S1x128x48.numel
  shapeCasts_S1x128x48_S128x48 : S1x128x48.ShapeCasts S128x48
  inb_S1x1x48_S1x1x48_0_0_0 : ∀ a, (![0, 0, 0] : Fin 3 → Nat) a + S1x1x48.size a ≤ S1x1x48.size a
  h_S1x1x48 : 0 < S1x1x48.numel
  shapeCasts_S1x1x48_S1x48 : S1x1x48.ShapeCasts S1x48
  broadcasts_S1x48_S4096x48 : S1x48.Broadcasts S4096x48
  inb_S1x4096x48_S1x4096x48_0_0_0 : ∀ a, (![0, 0, 0] : Fin 3 → Nat) a + S1x4096x48.size a ≤ S1x4096x48.size a
  h_S1x4096x48 : 0 < S1x4096x48.numel
  shapeCasts_S1x4096x48_S4096x48 : S1x4096x48.ShapeCasts S4096x48
  shapeCasts_S4096x48_S1x4096x48 : S4096x48.ShapeCasts S1x4096x48
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x128_S128x48_S4096x48_1_0_0_1_n_n_wf : DotDims.WF S4096x128 S128x48 S4096x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S8x65536x64.size a
  hwx0_0 : ∀ i : grid0.Coords, EltTy.bits .f32 = 32 ∨ (Rect.block (s := S8x65536x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x128.size a
  hwx0_1 : ∀ i : grid0.Coords, EltTy.bits .bf16 = 32 ∨ (Rect.block (s := S8x64x128) S1x64x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S8x128x128.size a
  hwx0_3 : ∀ i : grid0.Coords, EltTy.bits .bf16 = 32 ∨ (Rect.block (s := S8x128x128) S1x128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x48.size a ≤ S8x128x48.size a
  hwx0_5 : ∀ i : grid0.Coords, EltTy.bits .bf16 = 32 ∨ (Rect.block (s := S8x128x48) S1x128x48.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x48.size a ≤ S8x1x48.size a
  hwx0_6 : ∀ i : grid0.Coords, EltTy.bits .f32 = 32 ∨ (Rect.block (s := S8x1x48) S1x1x48.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x48.size a ≤ S8x65536x48.size a
  hwx0_7 : ∀ i : grid0.Coords, EltTy.bits .f32 = 32 ∨ (Rect.block (s := S8x65536x48) S1x4096x48.size (cc0_transform_7 i) (hinb0_7 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x48_S4096x48_1_0_0_1_n_n : DotDims S4096x128 S128x48 S4096x48 where
  lhsContracting := [1]
  rhsContracting := [0]
  lhsNonContracting := [0]
  rhsNonContracting := [1]
  lhsBatch := []
  rhsBatch := []
  wf := dot_S4096x128_S128x48_S4096x48_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128x48.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x48.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x4096x48.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x65536x1x64 : Shape := ⟨4, ![8, 65536, 1, 64]⟩
abbrev S8x64x128 : Shape := ⟨3, ![8, 64, 128]⟩
abbrev S8x128 : Shape := ⟨2, ![8, 128]⟩
abbrev S8x128x128 : Shape := ⟨3, ![8, 128, 128]⟩
abbrev S8x128x48 : Shape := ⟨3, ![8, 128, 48]⟩
abbrev S8x48 : Shape := ⟨2, ![8, 48]⟩
abbrev S8x65536x1x48 : Shape := ⟨4, ![8, 65536, 1, 48]⟩
abbrev S8x65536x1x16 : Shape := ⟨4, ![8, 65536, 1, 16]⟩
abbrev S_ : Shape := ⟨0, ![]⟩
abbrev S8x65536x64 : Shape := ⟨3, ![8, 65536, 64]⟩
abbrev S8x65536x128 : Shape := ⟨3, ![8, 65536, 128]⟩
abbrev S8x1x128 : Shape := ⟨3, ![8, 1, 128]⟩
abbrev S8x65536x48 : Shape := ⟨3, ![8, 65536, 48]⟩
abbrev S8x1x48 : Shape := ⟨3, ![8, 1, 48]⟩

abbrev nBuf : Space → Nat
  | .hbm => 37
  | .vmem => 0
  | .smem => 0
  | _ => 0

abbrev bufTy : (tb : Table) → Fin (tcTables nBuf tb) → BufTy
  | .hbm, ⟨0, _⟩ => ⟨S8x65536x1x64, .f32⟩
  | .hbm, ⟨1, _⟩ => ⟨S8x64x128, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S8x128x48, .f32⟩
  | .hbm, ⟨6, _⟩ => ⟨S8x48, .f32⟩
  | .hbm, ⟨7, _⟩ => ⟨S8x65536x1x48, .f32⟩
  | .hbm, ⟨8, _⟩ => ⟨S8x65536x1x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x65536x1x16, .f32⟩
  | .hbm, ⟨13, _⟩ => ⟨S8x65536x1x16, .f32⟩
  | .hbm, ⟨14, _⟩ => ⟨S_, .f32⟩
  | .hbm, ⟨15, _⟩ => ⟨S8x65536x1x16, .f32⟩
  | .hbm, ⟨16, _⟩ => ⟨S8x65536x1x16, .f32⟩
  | .hbm, ⟨17, _⟩ => ⟨S8x65536x1x64, .f32⟩
  | .hbm, ⟨18, _⟩ => ⟨S8x65536x64, .f32⟩
  | .hbm, ⟨19, _⟩ => ⟨S8x65536x128, .f32⟩
  | .hbm, ⟨20, _⟩ => ⟨S8x1x128, .f32⟩
  | .hbm, ⟨21, _⟩ => ⟨S8x65536x128, .f32⟩
  | .hbm, ⟨22, _⟩ => ⟨S8x65536x128, .f32⟩
  | .hbm, ⟨23, _⟩ => ⟨S_, .f32⟩
  | .hbm, ⟨24, _⟩ => ⟨S8x65536x128, .f32⟩
  | .hbm, ⟨25, _⟩ => ⟨S8x65536x128, .f32⟩
  | .hbm, ⟨26, _⟩ => ⟨S8x65536x128, .f32⟩
  | .hbm, ⟨27, _⟩ => ⟨S8x1x128, .f32⟩
  | .hbm, ⟨28, _⟩ => ⟨S8x65536x128, .f32⟩
  | .hbm, ⟨29, _⟩ => ⟨S8x65536x128, .f32⟩
  | .hbm, ⟨30, _⟩ => ⟨S_, .f32⟩
  | .hbm, ⟨31, _⟩ => ⟨S8x65536x128, .f32⟩
  | .hbm, ⟨32, _⟩ => ⟨S8x65536x128, .f32⟩
  | .hbm, ⟨33, _⟩ => ⟨S8x65536x48, .f32⟩
  | .hbm, ⟨34, _⟩ => ⟨S8x1x48, .f32⟩
  | .hbm, ⟨35, _⟩ => ⟨S8x65536x48, .f32⟩
  | .hbm, ⟨36, _⟩ => ⟨S8x65536x48, .f32⟩
  | _, _ => ⟨S8x65536x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]

class Facts₀ : Prop where
  slices_S8x65536x1x64_S8x65536x1x48_0_0_0_0 : S8x65536x1x64.Slices ![0, 0, 0, 0] S8x65536x1x48
  slices_S8x65536x1x64_S8x65536x1x16_0_0_0_48 : S8x65536x1x64.Slices ![0, 0, 0, 48] S8x65536x1x16
  bcast_S_S8x65536x1x16 : S_.BroadcastsInDim S8x65536x1x16 (![] : Fin 0 → Fin S8x65536x1x16.rank)
  concatenates_S8x65536x1x48_S8x65536x1x16_S8x65536x1x64_d3 : Shape.Concatenates [S8x65536x1x48, S8x65536x1x16] S8x65536x1x64 3
  shapeCasts_S8x65536x1x64_S8x65536x64 : S8x65536x1x64.ShapeCasts S8x65536x64
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  bcast_S8x48_S8x1x48_0_2 : S8x48.BroadcastsInDim S8x1x48 (![0, 2] : Fin 2 → Fin S8x1x48.rank)
  bcast_S8x1x48_S8x65536x48_0_1_2 : S8x1x48.BroadcastsInDim S8x65536x48 (![0, 1, 2] : Fin 3 → Fin S8x65536x48.rank)
  dot_S8x65536x64_S8x64x128_S8x65536x128_2_1_1_2_0_0_wf : DotDims.WF S8x65536x64 S8x64x128 S8x65536x128 [2] [1] [1] [2] [0] [0]
  dot_S8x65536x128_S8x128x128_S8x65536x128_2_1_1_2_0_0_wf : DotDims.WF S8x65536x128 S8x128x128 S8x65536x128 [2] [1] [1] [2] [0] [0]
  dot_S8x65536x128_S8x128x48_S8x65536x48_2_1_1_2_0_0_wf : DotDims.WF S8x65536x128 S8x128x48 S8x65536x48 [2] [1] [1] [2] [0] [0]

variable [Facts₀]

def dot_S8x65536x64_S8x64x128_S8x65536x128_2_1_1_2_0_0 : DotDims S8x65536x64 S8x64x128 S8x65536x128 where
  lhsContracting := [2]
  rhsContracting := [1]
  lhsNonContracting := [1]
  rhsNonContracting := [2]
  lhsBatch := [0]
  rhsBatch := [0]
  wf := dot_S8x65536x64_S8x64x128_S8x65536x128_2_1_1_2_0_0_wf
def dot_S8x65536x128_S8x128x128_S8x65536x128_2_1_1_2_0_0 : DotDims S8x65536x128 S8x128x128 S8x65536x128 where
  lhsContracting := [2]
  rhsContracting := [1]
  lhsNonContracting := [1]
  rhsNonContracting := [2]
  lhsBatch := [0]
  rhsBatch := [0]
  wf := dot_S8x65536x128_S8x128x128_S8x65536x128_2_1_1_2_0_0_wf
def dot_S8x65536x128_S8x128x48_S8x65536x48_2_1_1_2_0_0 : DotDims S8x65536x128 S8x128x48 S8x65536x48 where
  lhsContracting := [2]
  rhsContracting := [1]
  lhsNonContracting := [1]
  rhsNonContracting := [2]
  lhsBatch := [0]
  rhsBatch := [0]
  wf := dot_S8x65536x128_S8x128x48_S8x65536x48_2_1_1_2_0_0_wf

class Facts : Prop extends Facts₀ where

variable [Facts]
-- ==== Proof.RowMlp.lean ====
/-
  The function both programs compute, on ONE row.  A row of 64 inputs has its last 16 lanes held inside
  [-1, 1]; then three affine layers `v ↦ (∑ k, v k · W k h) + b h` follow, 64 → 128 → 128 → 48, with
  `max · 0` after the first two.  Every number is an extended real; the three constants are the words both
  programs print, never evaluated.  The whole result array applies the row function at member `e` and batch row
  `b` to row `(e, b)` of the input and to member `e`'s weights and biases.
-/
import Idealize.ShloMosaic.PureOps.Ideal
import Idealize.ShloMosaic.Lib.ValueIdx

noncomputable section

namespace Cert.RowMlp

open Idealize.ShloMosaic Idealize.ShloMosaic.ValueIdx

/-- The lower clip bound, the word of `-1.0`. -/
abbrev lo : EReal := Ideal.ofBits .f32 0xBF800000#32
/-- The upper clip bound, the word of `1.0`. -/
abbrev hi : EReal := Ideal.ofBits .f32 0x3F800000#32
/-- The rectifier's floor, the word of `0.0`. -/
abbrev floor0 : EReal := Ideal.ofBits .f32 0x00000000#32

/-- Lanes 48 … 63 of a row are held inside `[lo, hi]`; lanes 0 … 47 pass unchanged. -/
def clipTail (x : Fin 64 → EReal) (i : Fin 64) : EReal :=
  if 48 ≤ i.val then min hi (max lo (x i)) else x i

/-- One affine layer at output lane `h`: the row times column `h` of the weights, plus the bias. -/
def affine {K M : ℕ} (v : Fin K → EReal) (W : Fin K → Fin M → EReal) (b : Fin M → EReal) (h : Fin M) : EReal :=
  ∑ k : Fin K, v k * W k h + b h

/-- The rectifier. -/
def relu (v : EReal) : EReal := max v floor0

/-- The three layers on one row. -/
def rowMlp (x : Fin 64 → EReal) (W1 : Fin 64 → Fin 128 → EReal) (b1 : Fin 128 → EReal)
    (W2 : Fin 128 → Fin 128 → EReal) (b2 : Fin 128 → EReal) (W3 : Fin 128 → Fin 48 → EReal) (b3 : Fin 48 → EReal) :
    Fin 48 → EReal :=
  affine (fun k => relu (affine (fun h => relu (affine (clipTail x) W1 b1 h)) W2 b2 k)) W3 b3

/-- The result array `[8, 65536, 48]` as one function of the seven argument arrays: at `(e, b, o)` the row function of
    input row `(e, b)` and member `e`'s parameters, at lane `o`. -/
def whole (x : (⟨4, ![8, 65536, 1, 64]⟩ : Shape).Idx → EReal) (W1 : (⟨3, ![8, 64, 128]⟩ : Shape).Idx → EReal)
    (b1 : (⟨2, ![8, 128]⟩ : Shape).Idx → EReal) (W2 : (⟨3, ![8, 128, 128]⟩ : Shape).Idx → EReal)
    (b2 : (⟨2, ![8, 128]⟩ : Shape).Idx → EReal) (W3 : (⟨3, ![8, 128, 48]⟩ : Shape).Idx → EReal)
    (b3 : (⟨2, ![8, 48]⟩ : Shape).Idx → EReal) : (⟨3, ![8, 65536, 48]⟩ : Shape).Idx → EReal :=
  fun j => rowMlp (fun i => x (ix4 (j 0) (j 1) (0 : Fin 1) i)) (fun i h => W1 (ix3 (j 0) i h)) (fun h => b1 (ix2 (j 0) h))
    (fun h k => W2 (ix3 (j 0) h k)) (fun k => b2 (ix2 (j 0) k)) (fun k o => W3 (ix3 (j 0) k o)) (fun o => b3 (ix2 (j 0) o)) (j 2)

end Cert.RowMlp

end
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.KernelRow.lean ====
/-
  The kernel's body, read at an index given by coordinates.  The body loads one block of 4096 input rows and one
  member's weights and biases (each block has a leading axis of extent one), holds lanes 48 … 63 of every row inside
  [-1, 1] (a lane mask chooses, per lane, between the clipped row and the row), and runs the three layers: a
  rows × columns product into zeros, plus the bias row spread down the rows, `max · 0` after the first two.  At the
  extended reals a change of float format is the identity, so what the body stores at `(0, r, o)` is the row function
  of the input block's row `r` and the loaded parameters, at lane `o`.
-/
import proofs.«109741_j25941602468195_1_alg».proof.Proof.Gen.KernelIdeal.Frame
import proofs.«109741_j25941602468195_1_alg».proof.Proof.RowMlp
import proofs.«109741_j25941602468195_1_alg».proof.Proof.LibPlainMatmul
import Idealize.ShloMosaic.Lib.Pipeline.Value
import Idealize.ShloMosaic.Lib.ValueLayout

noncomputable section

namespace Cert.KernelIdeal.RowForm

open Cert.KernelIdeal Cert.KernelIdeal.Gen Idealize.ShloMosaic Idealize.ShloMosaic.ValueIdx Cert.RowMlp Cert.PlainMatmul

/-- The signed test `48 ≤ lane` on the lane numbers 0 … 63, as a one-bit word. -/
theorem lane_ge : ∀ i : Fin 64, IntOp.cmpi .sge (BitVec.ofNat 32 i.val) 48#32 = if 48 ≤ i.val then 1#1 else 0#1 := by
  decide

/-- The masked clip of a block of rows: at `(r, i)` it is the row's lane `i`, held inside [-1, 1] from lane 48 on. -/
theorem clip_apply (v : FVec Ideal ⟨2, ![4096, 64]⟩ .f32) (hio : (⟨2, ![4096, 64]⟩ : Shape).Iotas .tc 32 [1]) (r : Fin 4096) (i : Fin 64) :
    select (cmpi .sge (iota .tc ⟨2, ![4096, 64]⟩ 32 [1] hio) (broadcast ⟨2, ![4096, 64]⟩ 48#32))
      (minimumf (broadcast ⟨2, ![4096, 64]⟩ (Scalar.ofBits (F := Ideal) .f32 0x3F800000#32))
        (maximumf (broadcast ⟨2, ![4096, 64]⟩ (Scalar.ofBits (F := Ideal) .f32 0xBF800000#32)) v)) v (ix2 r i)
      = clipTail (fun i => v (ix2 r i)) i := by
  rw [select_apply]
  show Scalar.select (IntOp.cmpi .sge (iota .tc ⟨2, ![4096, 64]⟩ 32 [1] hio (ix2 r i)) 48#32) (min hi (max lo (v (ix2 r i)))) (v (ix2 r i)) = _
  rw [iota_single_apply]
  show Scalar.select (IntOp.cmpi .sge (BitVec.ofNat 32 i.val) 48#32) _ _ = _
  rw [lane_ge]
  unfold clipTail
  split
  · exact select_one _ _
  · exact select_zero _ _

/-- One layer of the body at `(r, c)`: the product into zeros of a block of rows with the loaded weights, plus the loaded
    bias row spread down the rows, is the affine layer of row `r`. -/
theorem layer_apply {M K N : ℕ} {φ₁ φ₂ : FTy} (a : FVec Ideal ⟨2, ![M, K]⟩ φ₁) (W : FVec Ideal ⟨3, ![1, K, N]⟩ φ₂)
    (bias : FVec Ideal ⟨3, ![1, 1, N]⟩ .f32) (hW : (⟨3, ![1, K, N]⟩ : Shape).ShapeCasts ⟨2, ![K, N]⟩)
    (hb : (⟨3, ![1, 1, N]⟩ : Shape).ShapeCasts ⟨2, ![1, N]⟩) (hbc : (⟨2, ![1, N]⟩ : Shape).Broadcasts ⟨2, ![M, N]⟩)
    (r : Fin M) (c : Fin N) :
    addf (matmul (DotDims.plain M K N) none a (shapeCast ⟨2, ![K, N]⟩ W hW) (constant ⟨2, ![M, N]⟩ .f32 0x00000000#32))
        (broadcastTo ⟨2, ![M, N]⟩ (shapeCast ⟨2, ![1, N]⟩ bias hb) hbc) (ix2 r c)
      = affine (fun k => a (ix2 r k)) (fun k c => W (ix3 (0 : Fin 1) k c)) (fun c => bias (ix3 (0 : Fin 1) (0 : Fin 1) c)) c := by
  rw [addf_apply, matmul_plain_zero_apply, broadcastTo_1b_ab_apply, shapeCast_1ab_ab_apply]
  unfold affine
  congr 1
  exact Finset.sum_congr rfl fun k _ => by rw [shapeCast_1ab_ab_apply]

/-- The printed dimension numbers of the three products are the plain rows × columns ones. -/
theorem dims1 : dot_S4096x64_S64x128_S4096x128_1_0_0_1_n_n = DotDims.plain 4096 64 128 := rfl
theorem dims2 : dot_S4096x128_S128x128_S4096x128_1_0_0_1_n_n = DotDims.plain 4096 128 128 := rfl
theorem dims3 : dot_S4096x128_S128x48_S4096x48_1_0_0_1_n_n = DotDims.plain 4096 128 48 := rfl

variable (v0 : Vec Ideal S1x4096x64 .f32) (v11 : Vec Ideal S1x64x128 .bf16) (v14 : Vec Ideal S1x1x128 .f32)
  (v21 : Vec Ideal S1x128x128 .bf16) (v24 : Vec Ideal S1x1x128 .f32) (v31 : Vec Ideal S1x128x48 .bf16) (v34 : Vec Ideal S1x1x48 .f32)

/-- The second hidden block at `(r, k)`: two layers of the row function on row `r` of the input block. -/
theorem pay2_apply (r : Fin 4096) (k : Fin 128) :
    k0_pay2 (F := Ideal) v0 v11 v14 v21 v24 (ix2 r k)
      = relu (affine (fun h => relu (affine (clipTail fun i => v0 (ix3 (0 : Fin 1) r i)) (fun i h => v11 (ix3 (0 : Fin 1) i h))
          (fun h => v14 (ix3 (0 : Fin 1) (0 : Fin 1) h)) h)) (fun h k => v21 (ix3 (0 : Fin 1) h k)) (fun k => v24 (ix3 (0 : Fin 1) (0 : Fin 1) k)) k) := by
  unfold k0_pay2
  rw [dims1, dims2]
  refine (congrArg relu (layer_apply (M := 4096) (K := 128) (N := 128) _ v21 v24 shapeCasts_S1x128x128_S128x128
    shapeCasts_S1x1x128_S1x128 broadcasts_S1x128_S4096x128 r k)).trans ?_
  refine congrArg (fun f : Fin 128 → EReal => relu (affine f (fun h k => v21 (ix3 (0 : Fin 1) h k)) (fun k => v24 (ix3 (0 : Fin 1) (0 : Fin 1) k)) k)) (funext fun h => ?_)
  refine (congrArg relu (layer_apply (M := 4096) (K := 64) (N := 128) _ v11 v14 shapeCasts_S1x64x128_S64x128
    shapeCasts_S1x1x128_S1x128 broadcasts_S1x128_S4096x128 r h)).trans ?_
  refine congrArg (fun f : Fin 64 → EReal => relu (affine f (fun i h => v11 (ix3 (0 : Fin 1) i h)) (fun h => v14 (ix3 (0 : Fin 1) (0 : Fin 1) h)) h)) (funext fun i => ?_)
  refine (clip_apply (shapeCast S4096x64 v0 shapeCasts_S1x4096x64_S4096x64) iota_S4096x64_d1_w32 r i).trans ?_
  refine congrArg (fun f : Fin 64 → EReal => clipTail f i) (funext fun i' => ?_)
  exact shapeCast_1ab_ab_apply v0 shapeCasts_S1x4096x64_S4096x64 r i'

/-- What the body stores at `(u, r, o)`, over the second hidden block and the loaded third layer. -/
theorem pay1_apply (v30 : FVec Ideal S4096x128 .bf16) (v32 : FVec Ideal S128x48 .bf16) (u : Fin 1) (r : Fin 4096) (o : Fin 48) :
    k0_pay1 (F := Ideal) v30 v32 v34 (ix3 u r o)
      = ∑ k : Fin 128, v30 (ix2 r k) * v32 (ix2 k o) + v34 (ix3 (0 : Fin 1) (0 : Fin 1) o) := by
  unfold k0_pay1
  rw [dims3]
  refine (shapeCast_ab_1ab_apply _ shapeCasts_S4096x48_S1x4096x48 u r o).trans ?_
  rw [addf_apply, matmul_plain_zero_apply, broadcastTo_1b_ab_apply, shapeCast_1ab_ab_apply]

theorem hz3 : (![0, 0, 0] : Fin 3 → Nat) = fun _ => 0 := funext fun a => by fin_cases a <;> rfl

/-- THE BODY'S RESULT at `(u, r, o)`: the row function of row `r` of the input block and of the loaded parameters. -/
theorem out_apply (u : Fin 1) (r : Fin 4096) (o : Fin 48) :
    out0_7 (F := Ideal) v0 v11 v14 v21 v24 v31 v34 (ix3 u r o)
      = rowMlp (fun i => v0 (ix3 (0 : Fin 1) r i)) (fun i h => v11 (ix3 (0 : Fin 1) i h)) (fun h => v14 (ix3 (0 : Fin 1) (0 : Fin 1) h))
          (fun h k => v21 (ix3 (0 : Fin 1) h k)) (fun k => v24 (ix3 (0 : Fin 1) (0 : Fin 1) k))
          (fun k o => v31 (ix3 (0 : Fin 1) k o)) (fun o => v34 (ix3 (0 : Fin 1) (0 : Fin 1) o)) o := by
  unfold out0_7
  rw [View.canon_unit_zero hz3]
  simp only [View.ld_unit_zero (S := S1x4096x64) hz3, View.ld_unit_zero (S := S1x64x128) hz3, View.ld_unit_zero (S := S1x1x128) hz3,
    View.ld_unit_zero (S := S1x128x128) hz3, View.ld_unit_zero (S := S1x128x48) hz3, View.ld_unit_zero (S := S1x1x48) hz3]
  rw [pay1_apply]
  unfold rowMlp
  show _ = affine _ _ _ o
  unfold affine
  congr 1
  refine Finset.sum_congr rfl fun k _ => ?_
  rw [pay2_apply]
  congr 1
  exact shapeCast_1ab_ab_apply v31 shapeCasts_S1x128x48_S128x48 k o

end Cert.KernelIdeal.RowForm

end
-- ==== Proof.KernelWhole.lean ====
/-
  From the kernel's blocks to its result array.  The grid has 8 × 16 points; point `(e, q)` stages member `e`'s weights
  and biases (blocks with a leading axis of extent one, every other axis whole), rows `4096 q … 4096 q + 4095` of member
  `e`'s input, and writes back rows `4096 q … 4096 q + 4095` of member `e`'s result.  A block's coordinate along an axis
  is always (block index) × (block extent) + (coordinate inside the block).  The arrays the region finds were made by
  the host before it: the input with its unit axis dropped, each bias with a unit axis added, each weight array changed
  of float format only (the identity at the extended reals).  So what point `(e, q)` writes back is block `(e, q)` of the
  row function applied row by row to the arguments; the 128 blocks tile the result array, so the array ends holding it.
-/
import proofs.«109741_j25941602468195_1_alg».proof.Proof.Gen.KernelIdeal.Value
import proofs.«109741_j25941602468195_1_alg».proof.Proof.KernelRow
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.RowMlp
open Idealize.ShloMosaic.Pipeline (Dat)

variable (m : (ℓ : Loc nD τ sig) → Buf (Elt Ideal) ℓ) (ρ : Dev nD → PrngReg)

/-- The row function is a function of its eight arguments. -/
theorem rowMlp_congr {x x' : Fin 64 → EReal} {W1 W1' : Fin 64 → Fin 128 → EReal} {b1 b1' : Fin 128 → EReal}
    {W2 W2' : Fin 128 → Fin 128 → EReal} {b2 b2' : Fin 128 → EReal} {W3 W3' : Fin 128 → Fin 48 → EReal} {b3 b3' : Fin 48 → EReal}
    {o o' : Fin 48} (hx : x = x') (h1 : W1 = W1') (hb1 : b1 = b1') (h2 : W2 = W2') (hb2 : b2 = b2') (h3 : W3 = W3') (hb3 : b3 = b3')
    (ho : o = o') : rowMlp x W1 b1 W2 b2 W3 b3 o = rowMlp x' W1' b1' W2' b2' W3' b3' o' := by
  subst hx h1 hb1 h2 hb2 h3 hb3 ho
  rfl

/-! ## The arrays the region finds -/

/-- The staged input is the input argument with its unit axis dropped. -/
theorem V_input (c : Dev nD) : (V m c main_v0 : S8x65536x64.Idx → EReal)
    = shapeCast S8x65536x64 (m ((c : Thread nD τ).loc main_arg0)) shapeCasts_S8x65536x1x64_S8x65536x64 := by
  dsimp only [Gen.V, Gen.hostOps0]; after_results; rfl

theorem V_bias1 (c : Dev nD) : (V m c main_v1 : S8x1x128.Idx → EReal)
    = shapeCast S8x1x128 (m ((c : Thread nD τ).loc main_arg2)) shapeCasts_S8x128_S8x1x128 := by
  dsimp only [Gen.V, Gen.hostOps0]; after_results; rfl

theorem V_bias2 (c : Dev nD) : (V m c main_v2 : S8x1x128.Idx → EReal)
    = shapeCast S8x1x128 (m ((c : Thread nD τ).loc main_arg4)) shapeCasts_S8x128_S8x1x128 := by
  dsimp only [Gen.V, Gen.hostOps0]; after_results; rfl

theorem V_bias3 (c : Dev nD) : (V m c main_v3 : S8x1x48.Idx → EReal)
    = shapeCast S8x1x48 (m ((c : Thread nD τ).loc main_arg6)) shapeCasts_S8x48_S8x1x48 := by
  dsimp only [Gen.V, Gen.hostOps0]; after_results; rfl

/-- Each staged weight array is its argument changed of float format: the same extended reals. -/
theorem V_weight1 (c : Dev nD) : (V m c main_v4 : S8x64x128.Idx → EReal) = m ((c : Thread nD τ).loc main_arg1) := by
  dsimp only [Gen.V, Gen.hostOps0]; after_results; rfl

theorem V_weight2 (c : Dev nD) : (V m c main_v5 : S8x128x128.Idx → EReal) = m ((c : Thread nD τ).loc main_arg3) := by
  dsimp only [Gen.V, Gen.hostOps0]; after_results; rfl

theorem V_weight3 (c : Dev nD) : (V m c main_v6 : S8x128x48.Idx → EReal) = m ((c : Thread nD τ).loc main_arg5) := by
  dsimp only [Gen.V, Gen.hostOps0]; after_results; rfl

/-- The staged input at `(e, b, i)` is the argument at `(e, b, 0, i)`. -/
theorem input_apply (c : Dev nD) (e : Fin 8) (b : Fin 65536) (i : Fin 64) :
    (V m c main_v0 : S8x65536x64.Idx → EReal) (ix3 e b i) = m ((c : Thread nD τ).loc main_arg0) (ix4 e b (0 : Fin 1) i) := by
  rw [V_input]
  exact shapeCast_apply _ shapeCasts_S8x65536x1x64_S8x65536x64 (ix3 e b i) (ix4 e b (0 : Fin 1) i) (by
    rw [Shape.rowMajor_val_four, Shape.rowMajor_val_three]
    show ((e.val * 65536 + b.val) * 1 + 0) * 64 + i.val = (e.val * 65536 + b.val) * 64 + i.val
    omega)

/-- A staged `[8, 1, n]` bias at `(e, z, h)` is the `[8, n]` argument at `(e, h)`. -/
theorem bias_cast_apply {n : ℕ} (x : (⟨2, ![8, n]⟩ : Shape).Idx → EReal) (hc : (⟨2, ![8, n]⟩ : Shape).ShapeCasts ⟨3, ![8, 1, n]⟩)
    (e : Fin 8) (z : Fin 1) (h : Fin n) : shapeCast ⟨3, ![8, 1, n]⟩ x hc (ix3 e z h) = x (ix2 e h) :=
  shapeCast_apply x hc (ix3 e z h) (ix2 e h) (by
    have hz : z.val = 0 := by omega
    rw [Shape.rowMajor_val_two, Shape.rowMajor_val_three]
    show e.val * n + h.val = (e.val * 1 + z.val) * n + h.val
    rw [hz, Nat.mul_one, Nat.add_zero])

/-! ## The index maps over the grid -/

/-- Decided over the 128 points: the input window moves with the output window on the member and row-block axes;
    every parameter window moves with it on the member axis and stays at block 0 elsewhere; the output's block
    indices are a member below 8, a row block below 16, and 0. -/
theorem idx_facts : ∀ t : Fin cfg0.N,
    (win0_0.index t (0 : Fin 3) = win0_7.index t (0 : Fin 3) ∧ win0_0.index t (1 : Fin 3) = win0_7.index t (1 : Fin 3) ∧ win0_0.index t (2 : Fin 3) = 0)
    ∧ (win0_1.index t (0 : Fin 3) = win0_7.index t (0 : Fin 3) ∧ win0_1.index t (1 : Fin 3) = 0 ∧ win0_1.index t (2 : Fin 3) = 0)
    ∧ (win0_2.index t (0 : Fin 3) = win0_7.index t (0 : Fin 3) ∧ win0_2.index t (1 : Fin 3) = 0 ∧ win0_2.index t (2 : Fin 3) = 0)
    ∧ (win0_3.index t (0 : Fin 3) = win0_7.index t (0 : Fin 3) ∧ win0_3.index t (1 : Fin 3) = 0 ∧ win0_3.index t (2 : Fin 3) = 0)
    ∧ (win0_4.index t (0 : Fin 3) = win0_7.index t (0 : Fin 3) ∧ win0_4.index t (1 : Fin 3) = 0 ∧ win0_4.index t (2 : Fin 3) = 0)
    ∧ (win0_5.index t (0 : Fin 3) = win0_7.index t (0 : Fin 3) ∧ win0_5.index t (1 : Fin 3) = 0 ∧ win0_5.index t (2 : Fin 3) = 0)
    ∧ (win0_6.index t (0 : Fin 3) = win0_7.index t (0 : Fin 3) ∧ win0_6.index t (1 : Fin 3) = 0 ∧ win0_6.index t (2 : Fin 3) = 0)
    ∧ (win0_7.index t (0 : Fin 3) < 8 ∧ win0_7.index t (1 : Fin 3) < 16 ∧ win0_7.index t (2 : Fin 3) = 0) :=
  (by decide +kernel : ∀ t : Fin grid0.N, _)

/-- Every (member, row block) pair is some point's. -/
theorem idx_onto : ∀ (q0 : Fin 8) (q1 : Fin 16), ∃ t : Fin cfg0.N, win0_7.index t = ![q0.val, q1.val, 0] :=
  (by decide +kernel : ∀ (q0 : Fin 8) (q1 : Fin 16), ∃ t : Fin grid0.N, win0_7.index t = ![q0.val, q1.val, 0])

/-! ## What a point writes back -/

/-- WHAT POINT `t` WRITES BACK is block `t` of the row function applied row by row to the argument arrays. -/
theorem flushed_eq (c : Dev nD) (t : Fin cfg0.N) :
    (dats m 0 c).flushed 7 t = ((cfg0.win 7).blk t).view.read (Elt Ideal)
      (whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [Value.flushed7]
  obtain ⟨⟨a00, a01, a02⟩, ⟨a10, a11, a12⟩, ⟨a20, a21, a22⟩, ⟨a30, a31, a32⟩, ⟨a40, a41, a42⟩, ⟨a50, a51, a52⟩, ⟨a60, a61, a62⟩, ⟨a70, a71, a72⟩⟩ := idx_facts t
  funext y
  obtain ⟨u, r, o, rfl⟩ : ∃ (u : Fin 1) (r : Fin 4096) (o : Fin 48), y = ix3 u r o := ⟨y 0, y 1, y 2, eq_ix3 y⟩
  have hu : u.val = 0 := by omega
  have hr := r.isLt
  have ho := o.isLt
  show out0_7 (iblk m c 0 t) (iblk m c 1 t) (iblk m c 2 t) (iblk m c 3 t) (iblk m c 4 t) (iblk m c 5 t) (iblk m c 6 t) (ix3 u r o)
    = whole _ _ _ _ _ _ _ (((cfg0.win 7).blk t).view.emb (ix3 u r o))
  -- where the written entry lies in the result array
  have hE : ((cfg0.win 7).blk t).view.emb (ix3 u r o)
      = ix3 (⟨win0_7.index t (0 : Fin 3), a70⟩ : Fin 8) (⟨win0_7.index t (1 : Fin 3) * 4096 + r.val, by omega⟩ : Fin 65536) o := by
    funext a
    apply Fin.ext
    match a with
    | ⟨0, _⟩ => show win0_7.index t (0 : Fin 3) * 1 + 1 * u.val = win0_7.index t (0 : Fin 3); omega
    | ⟨1, _⟩ => show win0_7.index t (1 : Fin 3) * 4096 + 1 * r.val = win0_7.index t (1 : Fin 3) * 4096 + r.val; omega
    | ⟨2, _⟩ => show win0_7.index t (2 : Fin 3) * 48 + 1 * o.val = o.val; omega
  rw [hE]
  refine (RowForm.out_apply (iblk m c 0 t) (iblk m c 1 t) (iblk m c 2 t) (iblk m c 3 t) (iblk m c 4 t) (iblk m c 5 t) (iblk m c 6 t) u r o).trans ?_
  unfold whole
  refine rowMlp_congr (funext fun i => ?_) (funext fun i => funext fun h => ?_) (funext fun h => ?_)
    (funext fun h => funext fun k => ?_) (funext fun k => ?_) (funext fun k => funext fun o' => ?_) (funext fun o' => ?_) rfl
  · -- the input block's row `r`, lane `i`
    show (V m c main_v0 : S8x65536x64.Idx → EReal) (((cfg0.win 0).blk t).view.emb (ix3 (0 : Fin 1) r i)) = _
    have hI : ((cfg0.win 0).blk t).view.emb (ix3 (0 : Fin 1) r i)
        = ix3 (⟨win0_7.index t (0 : Fin 3), a70⟩ : Fin 8) (⟨win0_7.index t (1 : Fin 3) * 4096 + r.val, by omega⟩ : Fin 65536) i := by
      funext a
      apply Fin.ext
      have hi := i.isLt
      match a with
      | ⟨0, _⟩ => show win0_0.index t (0 : Fin 3) * 1 + 1 * 0 = win0_7.index t (0 : Fin 3); omega
      | ⟨1, _⟩ => show win0_0.index t (1 : Fin 3) * 4096 + 1 * r.val = win0_7.index t (1 : Fin 3) * 4096 + r.val; omega
      | ⟨2, _⟩ => show win0_0.index t (2 : Fin 3) * 64 + 1 * i.val = i.val; omega
    rw [hI, input_apply]
  · -- the first layer's weights
    show (V m c main_v4 : S8x64x128.Idx → EReal) (((cfg0.win 1).blk t).view.emb (ix3 (0 : Fin 1) i h)) = _
    have hI : ((cfg0.win 1).blk t).view.emb (ix3 (0 : Fin 1) i h) = ix3 (⟨win0_7.index t (0 : Fin 3), a70⟩ : Fin 8) i h := by
      funext a
      apply Fin.ext
      match a with
      | ⟨0, _⟩ => show win0_1.index t (0 : Fin 3) * 1 + 1 * 0 = win0_7.index t (0 : Fin 3); omega
      | ⟨1, _⟩ => show win0_1.index t (1 : Fin 3) * 64 + 1 * i.val = i.val; omega
      | ⟨2, _⟩ => show win0_1.index t (2 : Fin 3) * 128 + 1 * h.val = h.val; omega
    rw [hI, V_weight1]
  · -- the first layer's bias
    show (V m c main_v1 : S8x1x128.Idx → EReal) (((cfg0.win 2).blk t).view.emb (ix3 (0 : Fin 1) (0 : Fin 1) h)) = _
    have hI : ((cfg0.win 2).blk t).view.emb (ix3 (0 : Fin 1) (0 : Fin 1) h) = ix3 (⟨win0_7.index t (0 : Fin 3), a70⟩ : Fin 8) (0 : Fin 1) h := by
      funext a
      apply Fin.ext
      match a with
      | ⟨0, _⟩ => show win0_2.index t (0 : Fin 3) * 1 + 1 * 0 = win0_7.index t (0 : Fin 3); omega
      | ⟨1, _⟩ => show win0_2.index t (1 : Fin 3) * 1 + 1 * 0 = 0; omega
      | ⟨2, _⟩ => show win0_2.index t (2 : Fin 3) * 128 + 1 * h.val = h.val; omega
    rw [hI, V_bias1, bias_cast_apply]
  · -- the second layer's weights
    show (V m c main_v5 : S8x128x128.Idx → EReal) (((cfg0.win 3).blk t).view.emb (ix3 (0 : Fin 1) h k)) = _
    have hI : ((cfg0.win 3).blk t).view.emb (ix3 (0 : Fin 1) h k) = ix3 (⟨win0_7.index t (0 : Fin 3), a70⟩ : Fin 8) h k := by
      funext a
      apply Fin.ext
      match a with
      | ⟨0, _⟩ => show win0_3.index t (0 : Fin 3) * 1 + 1 * 0 = win0_7.index t (0 : Fin 3); omega
      | ⟨1, _⟩ => show win0_3.index t (1 : Fin 3) * 128 + 1 * h.val = h.val; omega
      | ⟨2, _⟩ => show win0_3.index t (2 : Fin 3) * 128 + 1 * k.val = k.val; omega
    rw [hI, V_weight2]
  · -- the second layer's bias
    show (V m c main_v2 : S8x1x128.Idx → EReal) (((cfg0.win 4).blk t).view.emb (ix3 (0 : Fin 1) (0 : Fin 1) k)) = _
    have hI : ((cfg0.win 4).blk t).view.emb (ix3 (0 : Fin 1) (0 : Fin 1) k) = ix3 (⟨win0_7.index t (0 : Fin 3), a70⟩ : Fin 8) (0 : Fin 1) k := by
      funext a
      apply Fin.ext
      match a with
      | ⟨0, _⟩ => show win0_4.index t (0 : Fin 3) * 1 + 1 * 0 = win0_7.index t (0 : Fin 3); omega
      | ⟨1, _⟩ => show win0_4.index t (1 : Fin 3) * 1 + 1 * 0 = 0; omega
      | ⟨2, _⟩ => show win0_4.index t (2 : Fin 3) * 128 + 1 * k.val = k.val; omega
    rw [hI, V_bias2, bias_cast_apply]
  · -- the third layer's weights
    show (V m c main_v6 : S8x128x48.Idx → EReal) (((cfg0.win 5).blk t).view.emb (ix3 (0 : Fin 1) k o')) = _
    have hI : ((cfg0.win 5).blk t).view.emb (ix3 (0 : Fin 1) k o') = ix3 (⟨win0_7.index t (0 : Fin 3), a70⟩ : Fin 8) k o' := by
      funext a
      apply Fin.ext
      match a with
      | ⟨0, _⟩ => show win0_5.index t (0 : Fin 3) * 1 + 1 * 0 = win0_7.index t (0 : Fin 3); omega
      | ⟨1, _⟩ => show win0_5.index t (1 : Fin 3) * 128 + 1 * k.val = k.val; omega
      | ⟨2, _⟩ => show win0_5.index t (2 : Fin 3) * 48 + 1 * o'.val = o'.val; omega
    rw [hI, V_weight3]
  · -- the third layer's bias
    show (V m c main_v3 : S8x1x48.Idx → EReal) (((cfg0.win 6).blk t).view.emb (ix3 (0 : Fin 1) (0 : Fin 1) o')) = _
    have hI : ((cfg0.win 6).blk t).view.emb (ix3 (0 : Fin 1) (0 : Fin 1) o') = ix3 (⟨win0_7.index t (0 : Fin 3), a70⟩ : Fin 8) (0 : Fin 1) o' := by
      funext a
      apply Fin.ext
      match a with
      | ⟨0, _⟩ => show win0_6.index t (0 : Fin 3) * 1 + 1 * 0 = win0_7.index t (0 : Fin 3); omega
      | ⟨1, _⟩ => show win0_6.index t (1 : Fin 3) * 1 + 1 * 0 = 0; omega
      | ⟨2, _⟩ => show win0_6.index t (2 : Fin 3) * 48 + 1 * o'.val = o'.val; omega
    rw [hI, V_bias3, bias_cast_apply]

/-! ## The blocks tile the result array -/

/-- An index of the result array is in point `t`'s block iff each coordinate is in the block's range on its axis. -/
theorem mem_blk (t : Fin cfg0.N) (i : S8x65536x48.Idx) :
    i ∈ ((cfg0.win 7).blk t).view.set ↔ ∀ a : Fin 3, win0_7.index t a * S1x4096x48.size a ≤ (i a).val ∧ (i a).val < win0_7.index t a * S1x4096x48.size a + S1x4096x48.size a := by
  show i ∈ ((View.whole main_v7).slice (win0_7.rect t)).set ↔ _
  rw [View.set_slice_whole, Rect.mem_set_unit]
  exact Iff.rfl

/-- Entry `(e, b, o)` lies in the block of the point with member `e` and row block `b / 4096`. -/
theorem cover (i : S8x65536x48.Idx) : ∃ t : Fin cfg0.N, (cfg0.win 7).flush t = true ∧ i ∈ ((cfg0.win 7).blk t).view.set := by
  have h0 : (i 0).val < 8 := (i 0).isLt
  have h1 : (i 1).val < 65536 := (i 1).isLt
  have h2 : (i 2).val < 48 := (i 2).isLt
  obtain ⟨t, ht⟩ := idx_onto ⟨(i 0).val, h0⟩ ⟨(i 1).val / 4096, by omega⟩
  have q0 : win0_7.index t (0 : Fin 3) = (i 0).val := congrFun ht 0
  have q1 : win0_7.index t (1 : Fin 3) = (i 1).val / 4096 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 48 ≤ (i 2).val ∧ (i 2).val < win0_7.index t (2 : Fin 3) * 48 + 48; omega

/-- THE RESULT ARRAY after the run: the row function applied row by row to the argument arrays. -/
theorem final (c : Dev nD) : (dats m 0 c).arrAt 7 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 7 _ (fun t _ => flushed_eq m c t) cover

/-- The kernel's run with its result array named: the row function of the arguments, the arguments unchanged. -/
theorem run : θ_run defs (onTc (τ := τ) (main (F := Ideal))) ⟨m, fun _ => 0, ρ⟩ fun r => ∀ c : Dev nD,
      r.2.mem ((c : Thread nD τ).loc main_v7)
        = whole (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefSide.lean ====
/-
  The reference, read layer by layer at an index given by coordinates.  Its clipped input is the input's first 48
  lanes beside its last 16 held inside [-1, 1]: lane `i` of row `(e, b)` is the row function's `clipTail`.  Each
  batched product at `(e, b, h)` sums over the contracted lane the left operand at `(e, b, k)` times member `e`'s
  weight at `(k, h)`; the bias is member `e`'s, spread over the batch rows; the rectifier is `max · 0`.  So the
  reference's result array is the row function applied row by row.
-/
import proofs.«109741_j25941602468195_1_alg».proof.Proof.Gen.ReferenceIdeal.Run
import proofs.«109741_j25941602468195_1_alg».proof.Proof.Gen.ReferenceIdeal.Read
import proofs.«109741_j25941602468195_1_alg».proof.Proof.RowMlp

noncomputable section

namespace Cert.ReferenceIdeal.RowForm

open Cert.ReferenceIdeal Cert.ReferenceIdeal.Gen Cert.ReferenceIdeal.Read Idealize.ShloMosaic Idealize.ShloMosaic.ValueIdx Cert.RowMlp

variable (x0 : (⟨S8x65536x1x64, .f32⟩ : BufTy).Contents (Elt Ideal)) (x1 : (⟨S8x64x128, .f32⟩ : BufTy).Contents (Elt Ideal))
  (x2 : (⟨S8x128, .f32⟩ : BufTy).Contents (Elt Ideal)) (x3 : (⟨S8x128x128, .f32⟩ : BufTy).Contents (Elt Ideal))
  (x4 : (⟨S8x128, .f32⟩ : BufTy).Contents (Elt Ideal)) (x5 : (⟨S8x128x48, .f32⟩ : BufTy).Contents (Elt Ideal))
  (x6 : (⟨S8x48, .f32⟩ : BufTy).Contents (Elt Ideal))

/-- The flattened index `(e, b, i)` of the reshaped input is `(e, b, 0, i)` of the four-axis one. -/
theorem reshape_idx (e : Fin 8) (b : Fin 65536) (i : Fin 64) : idx_main_v4 (ix3 e b i) = ix4 e b (0 : Fin 1) i := by
  funext a
  apply Fin.ext
  have he := e.isLt
  have hb := b.isLt
  have hi := i.isLt
  match a with
  | ⟨0, _⟩ => show ((e.val * 65536 + b.val) * 64 + i.val) / 4194304 = e.val; omega
  | ⟨1, _⟩ => show ((e.val * 65536 + b.val) * 64 + i.val) / 64 % 65536 = b.val; omega
  | ⟨2, _⟩ => rfl
  | ⟨3, _⟩ => show ((e.val * 65536 + b.val) * 64 + i.val) % 64 = i.val; omega

/-- The reshaped input at `(e, b, i)`: the input's lane `i` of row `(e, b)`, held inside [-1, 1] from lane 48 on. -/
theorem clipped_apply (e : Fin 8) (b : Fin 65536) (i : Fin 64) :
    val_main_v4 (F := Ideal) x0 (ix3 e b i) = clipTail (fun i => x0 (ix4 e b (0 : Fin 1) i)) i := by
  rw [val_main_v4_apply, reshape_idx]
  unfold val_main_v3 clipTail
  have hi := i.isLt
  split
  · next h48 =>
    -- the lane falls in the second piece, at lane `i - 48` of it
    refine (concatenate_pair_apply_right (t := S8x65536x1x64) (s₁ := S8x65536x1x48) (s₂ := S8x65536x1x16) (3 : Fin 4)
      (val_main_v0 (F := Ideal) x0) (val_main_v2 (F := Ideal) x0) concatenates_S8x65536x1x48_S8x65536x1x16_S8x65536x1x64_d3
      (ix4 e b (0 : Fin 1) i) rfl rfl (ix4 e b (0 : Fin 1) (⟨i.val - 48, by omega⟩ : Fin 16) : S8x65536x1x16.Idx) (fun a ha => ?_) ?_).trans ?_
    · match a with
      | ⟨0, _⟩ => rfl
      | ⟨1, _⟩ => rfl
      | ⟨2, _⟩ => rfl
      | ⟨3, _⟩ => exact absurd rfl ha
    · show (i.val - 48) + 48 = i.val
      omega
    · rw [val_main_v2_apply, val_main_call0_v4_apply, val_main_call0_v3_apply, val_main_cst_0_apply, val_main_call0_v2_apply,
        val_main_call0_v1_apply, val_main_call0_v0_apply, val_main_cst_apply, val_main_v1_apply]
      have hidx : idx_main_v1 (ix4 e b (0 : Fin 1) (⟨i.val - 48, by omega⟩ : Fin 16)) = ix4 e b (0 : Fin 1) i := by
        funext a
        apply Fin.ext
        match a with
        | ⟨0, _⟩ => rfl
        | ⟨1, _⟩ => rfl
        | ⟨2, _⟩ => rfl
        | ⟨3, _⟩ => show 48 + (i.val - 48) = i.val; omega
      rw [hidx]
      rfl
  · next h48 =>
    -- the lane falls in the first piece, at the same lane
    refine (concatenate_pair_apply_left (t := S8x65536x1x64) (s₁ := S8x65536x1x48) (s₂ := S8x65536x1x16) (3 : Fin 4)
      (val_main_v0 (F := Ideal) x0) (val_main_v2 (F := Ideal) x0) concatenates_S8x65536x1x48_S8x65536x1x16_S8x65536x1x64_d3
      (ix4 e b (0 : Fin 1) i) rfl (ix4 e b (0 : Fin 1) (⟨i.val, by omega⟩ : Fin 48) : S8x65536x1x48.Idx) (fun a => ?_)).trans ?_
    · match a with
      | ⟨0, _⟩ => rfl
      | ⟨1, _⟩ => rfl
      | ⟨2, _⟩ => rfl
      | ⟨3, _⟩ => rfl
    · rw [val_main_v0_apply]
      have hidx : idx_main_v0 (ix4 e b (0 : Fin 1) (⟨i.val, by omega⟩ : Fin 48)) = ix4 e b (0 : Fin 1) i := by
        funext a
        apply Fin.ext
        match a with
        | ⟨0, _⟩ => rfl
        | ⟨1, _⟩ => rfl
        | ⟨2, _⟩ => rfl
        | ⟨3, _⟩ => rfl
      rw [hidx]

/-- The first layer after its rectifier at `(e, b, h)`. -/
theorem hidden1_apply (e : Fin 8) (b : Fin 65536) (h : Fin 128) :
    val_main_v9 (F := Ideal) x0 x1 x2 (ix3 e b h)
      = relu (affine (clipTail fun i => x0 (ix4 e b (0 : Fin 1) i)) (fun i h => x1 (ix3 e i h)) (fun h => x2 (ix2 e h)) h) := by
  rw [val_main_v9_apply, val_main_v8_apply, val_main_v5_apply, val_main_v7_apply, val_main_v6_apply, val_main_call1_v0_apply,
    val_main_call1_cst_apply]
  have hl : ∀ k : Fin 64, lidx_main_v5 (ix3 e b h) k = ix3 e b k := fun k => funext fun a => Fin.ext (by
    match a with
    | ⟨0, _⟩ => rfl
    | ⟨1, _⟩ => rfl
    | ⟨2, _⟩ => rfl)
  have hr : ∀ k : Fin 64, ridx_main_v5 (ix3 e b h) k = ix3 e k h := fun k => funext fun a => Fin.ext (by
    match a with
    | ⟨0, _⟩ => rfl
    | ⟨1, _⟩ => rfl
    | ⟨2, _⟩ => rfl)
  have hb : idx_main_v6 (idx_main_v7 (ix3 e b h)) = ix2 e h := funext fun a => Fin.ext (by
    match a with
    | ⟨0, _⟩ => rfl
    | ⟨1, _⟩ => rfl)
  have hsum : (∑ k : Fin 64, val_main_v4 (F := Ideal) x0 (lidx_main_v5 (ix3 e b h) k) * x1 (ridx_main_v5 (ix3 e b h) k))
      = ∑ k : Fin 64, clipTail (fun i => x0 (ix4 e b (0 : Fin 1) i)) k * x1 (ix3 e k h) :=
    Finset.sum_congr rfl fun k _ => by rw [hl k, hr k, clipped_apply]
  rw [hsum, hb]
  rfl

/-- The second layer after its rectifier at `(e, b, k)`. -/
theorem hidden2_apply (e : Fin 8) (b : Fin 65536) (k : Fin 128) :
    val_main_v14 (F := Ideal) x0 x1 x2 x3 x4 (ix3 e b k)
      = relu (affine (fun h => relu (affine (clipTail fun i => x0 (ix4 e b (0 : Fin 1) i)) (fun i h => x1 (ix3 e i h))
          (fun h => x2 (ix2 e h)) h)) (fun h k => x3 (ix3 e h k)) (fun k => x4 (ix2 e k)) k) := by
  rw [val_main_v14_apply, val_main_v13_apply, val_main_v10_apply, val_main_v12_apply, val_main_v11_apply, val_main_call2_v0_apply,
    val_main_call2_cst_apply]
  have hl : ∀ h : Fin 128, lidx_main_v10 (ix3 e b k) h = ix3 e b h := fun h => funext fun a => Fin.ext (by
    match a with
    | ⟨0, _⟩ => rfl
    | ⟨1, _⟩ => rfl
    | ⟨2, _⟩ => rfl)
  have hr : ∀ h : Fin 128, ridx_main_v10 (ix3 e b k) h = ix3 e h k := fun h => funext fun a => Fin.ext (by
    match a with
    | ⟨0, _⟩ => rfl
    | ⟨1, _⟩ => rfl
    | ⟨2, _⟩ => rfl)
  have hb : idx_main_v11 (idx_main_v12 (ix3 e b k)) = ix2 e k := funext fun a => Fin.ext (by
    match a with
    | ⟨0, _⟩ => rfl
    | ⟨1, _⟩ => rfl)
  have hsum : (∑ h : Fin 128, val_main_v9 (F := Ideal) x0 x1 x2 (lidx_main_v10 (ix3 e b k) h) * x3 (ridx_main_v10 (ix3 e b k) h))
      = ∑ h : Fin 128, relu (affine (clipTail fun i => x0 (ix4 e b (0 : Fin 1) i)) (fun i h => x1 (ix3 e i h))
          (fun h => x2 (ix2 e h)) h) * x3 (ix3 e h k) :=
    Finset.sum_congr rfl fun h _ => by rw [hl h, hr h, hidden1_apply]
  rw [hsum, hb]
  rfl

/-- The result at `(e, b, o)`: the row function of input row `(e, b)` and member `e`'s parameters. -/
theorem out_apply (e : Fin 8) (b : Fin 65536) (o : Fin 48) :
    val_main_v18 (F := Ideal) x0 x1 x2 x3 x4 x5 x6 (ix3 e b o)
      = rowMlp (fun i => x0 (ix4 e b (0 : Fin 1) i)) (fun i h => x1 (ix3 e i h)) (fun h => x2 (ix2 e h))
          (fun h k => x3 (ix3 e h k)) (fun k => x4 (ix2 e k)) (fun k o => x5 (ix3 e k o)) (fun o => x6 (ix2 e o)) o := by
  rw [val_main_v18_apply, val_main_v15_apply, val_main_v17_apply, val_main_v16_apply]
  have hl : ∀ k : Fin 128, lidx_main_v15 (ix3 e b o) k = ix3 e b k := fun k => funext fun a => Fin.ext (by
    match a with
    | ⟨0, _⟩ => rfl
    | ⟨1, _⟩ => rfl
    | ⟨2, _⟩ => rfl)
  have hr : ∀ k : Fin 128, ridx_main_v15 (ix3 e b o) k = ix3 e k o := fun k => funext fun a => Fin.ext (by
    match a with
    | ⟨0, _⟩ => rfl
    | ⟨1, _⟩ => rfl
    | ⟨2, _⟩ => rfl)
  have hb : idx_main_v16 (idx_main_v17 (ix3 e b o)) = ix2 e o := funext fun a => Fin.ext (by
    match a with
    | ⟨0, _⟩ => rfl
    | ⟨1, _⟩ => rfl)
  have hsum : (∑ k : Fin 128, val_main_v14 (F := Ideal) x0 x1 x2 x3 x4 (lidx_main_v15 (ix3 e b o) k) * x5 (ridx_main_v15 (ix3 e b o) k))
      = ∑ k : Fin 128, relu (affine (fun h => relu (affine (clipTail fun i => x0 (ix4 e b (0 : Fin 1) i)) (fun i h => x1 (ix3 e i h))
          (fun h => x2 (ix2 e h)) h)) (fun h k => x3 (ix3 e h k)) (fun k => x4 (ix2 e k)) k) * x5 (ix3 e k o) :=
    Finset.sum_congr rfl fun k _ => by rw [hl k, hr k, hidden2_apply]
  rw [hsum, hb]
  rfl

/-- The reference's result array is the row function applied row by row. -/
theorem result_eq : val_main_v18 (F := Ideal) x0 x1 x2 x3 x4 x5 x6 = whole x0 x1 x2 x3 x4 x5 x6 := by
  funext j
  obtain ⟨e, b, o, rfl⟩ : ∃ (e : Fin 8) (b : Fin 65536) (o : Fin 48), j = ix3 e b o := ⟨j 0, j 1, j 2, eq_ix3 j⟩
  rw [out_apply]
  rfl

end Cert.ReferenceIdeal.RowForm

end
-- ==== Proof.lean ====
/-
  An ensemble of eight three-layer perceptrons on 65536 rows each: a kernel that streams blocks of 4096 rows through
  the three layers with the member's weights resident, against the batched reference.

  On one row both programs compute the same function (Proof/RowMlp.lean): lanes 48 … 63 of the 64 inputs are held
  inside [-1, 1]; then `v ↦ (∑ k, v k · W k h) + b h` three times, 64 → 128 → 128 → 48, with `max · 0` after the first
  two.  The kernel clips by a lane mask, the reference by slicing, clipping and joining; the kernel multiplies in a
  narrower float format, which at the extended reals is the identity; a product into zeros and the host's batched product
  are the same `Fin`-indexed sum.  No law beyond re-indexing a sum is used, so the inputs' finiteness is never opened.

  Proof/KernelRow.lean reads the kernel's body at an entry of its output block as the row function of the loaded blocks;
  Proof/KernelWhole.lean carries that from the 128 blocks to the whole result array; Proof/RefSide.lean reads the
  reference's run, stage by stage, as the same function.  The three frames are the generated ones (the reference's is
  its run with the result dropped), and the kernel's idealization rewrote nothing.
-/
import proofs.«109741_j25941602468195_1_alg».proof.Defs
import proofs.«109741_j25941602468195_1_alg».proof.Proof.Gen.Kernel
import proofs.«109741_j25941602468195_1_alg».proof.Proof.Gen.Kernel.Skeleton
import proofs.«109741_j25941602468195_1_alg».proof.Proof.Gen.Kernel.Launch
import proofs.«109741_j25941602468195_1_alg».proof.Proof.Gen.Kernel.Points
import proofs.«109741_j25941602468195_1_alg».proof.Proof.Gen.Kernel.Frame
import proofs.«109741_j25941602468195_1_alg».proof.Proof.Gen.KernelIdeal
import proofs.«109741_j25941602468195_1_alg».proof.Proof.Gen.KernelIdeal.Skeleton
import proofs.«109741_j25941602468195_1_alg».proof.Proof.Gen.KernelIdeal.Launch
import proofs.«109741_j25941602468195_1_alg».proof.Proof.Gen.KernelIdeal.Points
import proofs.«109741_j25941602468195_1_alg».proof.Proof.Gen.KernelIdeal.Frame
import proofs.«109741_j25941602468195_1_alg».proof.Proof.Gen.KernelIdeal.Value
import proofs.«109741_j25941602468195_1_alg».proof.Proof.Gen.ReferenceIdeal
import proofs.«109741_j25941602468195_1_alg».proof.Proof.Gen.ReferenceIdeal.Run
import proofs.«109741_j25941602468195_1_alg».proof.Proof.Gen.ReferenceIdeal.Read
import proofs.«109741_j25941602468195_1_alg».proof.Proof.Gen.Pre_finite_inputs
import proofs.«109741_j25941602468195_1_alg».proof.Proof.KernelWhole
import proofs.«109741_j25941602468195_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the row function applied row by row to them. -/
theorem algebraic : Cert.algebraic_KernelIdeal_ReferenceIdeal := by
  intro m ρ m' ρ' _ hagree
  refine ⟨fun c => Cert.RowMlp.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RowForm.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
